-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S1x32768 : Shape := ⟨2, ![1, 32768]⟩
abbrev S1x512x4096 : Shape := ⟨3, ![1, 512, 4096]⟩
abbrev S1x2048 : Shape := ⟨2, ![1, 2048]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S1x32768 : S_.BroadcastsInDim S1x32768 (![] : Fin 0 → Fin S1x32768.rank)
  reducesTo_S1x32768_S_d0_1 : S1x32768.ReducesTo [0, 1] S_
  bcast_S_S1x2048 : S_.BroadcastsInDim S1x2048 (![] : Fin 0 → Fin S1x2048.rank)
  reducesTo_S1x2048_S_d0_1 : S1x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x4096x4096 .f32) (main_arg1 : FVec F S1x32768 .f32) (main_arg2 : IVec S1x512x4096 32) (main_arg3 : FVec F S1x2048 .f32) (main_arg4 : IVec S1x512x4096 32) (main_arg5 : FVec F S4096 .f32) (main_arg6 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S1x32768 .f32 := Host.absf main_arg1
  let main_cst_0 : FVec F S_ .f32 := constant S_ .f32 0x7F800000#32
  let main_v5 : FVec F S1x32768 .f32 := broadcastInDim S1x32768 ![] bcast_S_S1x32768 main_cst_0
  let main_v6 : IVec S1x32768 1 := cmpf .olt main_v4 main_v5
  let main_c_1 : IVec S_ 1 := constantI S_ 1 1#1
  let main_v7 : IVec S_ 1 := (fun x v => Host.reduce IntOp.andi x v reducesTo_S1x32768_S_d0_1 h_S_) main_v6 main_c_1
  let main_v8 : IVec S_ 1 := andi main_v3 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg6 main_v13 main_v16
-- ==== Kernel.lean ====
abbrev S4x4096x4096 : Shape := ⟨3, ![4, 4096, 4096]⟩
abbrev S1x32768 : Shape := ⟨2, ![1, 32768]⟩
abbrev S1x512x4096 : Shape := ⟨3, ![1, 512, 4096]⟩
abbrev S1x2048 : Shape := ⟨2, ![1, 2048]⟩
abbrev S4096 : Shape := ⟨1, ![4096]⟩
abbrev S4096x8 : Shape := ⟨2, ![4096, 8]⟩
abbrev S512x4096 : Shape := ⟨2, ![512, 4096]⟩
abbrev S_ : Shape := ⟨0, ![]⟩
abbrev S512x4096x1 : Shape := ⟨3, ![512, 4096, 1]⟩
abbrev S512x4096x8 : Shape := ⟨3, ![512, 4096, 8]⟩
abbrev S512x8x4096 : Shape := ⟨3, ![512, 8, 4096]⟩
abbrev S4096x4096 : Shape := ⟨2, ![4096, 4096]⟩
abbrev S256x8 : Shape := ⟨2, ![256, 8]⟩
abbrev S1x4096 : Shape := ⟨2, ![1, 4096]⟩
abbrev S16384x4096 : Shape := ⟨2, ![16384, 4096]⟩
abbrev S128x4096 : Shape := ⟨2, ![128, 4096]⟩

abbrev nBuf : Space → Nat
  | .hbm => 44
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S1x32768, .f32⟩
  | .hbm, ⟨2, _⟩ => ⟨S1x512x4096, .i32⟩
  | .hbm, ⟨3, _⟩ => ⟨S1x2048, .f32⟩
  | .hbm, ⟨4, _⟩ => ⟨S1x512x4096, .i32⟩
  | .hbm, ⟨5, _⟩ => ⟨S4096, .f32⟩
  | .hbm, ⟨6, _⟩ => ⟨S4096, .f32⟩
  | .hbm, ⟨7, _⟩ => ⟨S4096x8, .f32⟩
  | .hbm, ⟨8, _⟩ => ⟨S512x4096, .i32⟩
  | .hbm, ⟨9, _⟩ => ⟨S_, .i32⟩
  | .hbm, ⟨10, _⟩ => ⟨S512x4096, .i32⟩
  | .hbm, ⟨11, _⟩ => ⟨S512x4096, .i1⟩
  | .hbm, ⟨12, _⟩ => ⟨S_, .i32⟩
  | .hbm, ⟨13, _⟩ => ⟨S512x4096, .i32⟩
  | .hbm, ⟨14, _⟩ => ⟨S512x4096, .i32⟩
  | .hbm, ⟨15, _⟩ => ⟨S512x4096, .i32⟩
  | .hbm, ⟨16, _⟩ => ⟨S512x4096x1, .i32⟩
  | .hbm, ⟨17, _⟩ => ⟨S512x4096x8, .f32⟩
  | .hbm, ⟨18, _⟩ => ⟨S512x8x4096, .f32⟩
  | .hbm, ⟨19, _⟩ => ⟨S4096x4096, .f32⟩
  | .hbm, ⟨20, _⟩ => ⟨S256x8, .f32⟩
  | .hbm, ⟨21, _⟩ => ⟨S512x4096, .i32⟩
  | .hbm, ⟨22, _⟩ => ⟨S_, .i32⟩
  | .hbm, ⟨23, _⟩ => ⟨S512x4096, .i32⟩
  | .hbm, ⟨24, _⟩ => ⟨S512x4096, .i1⟩
  | .hbm, ⟨25, _⟩ => ⟨S_, .i32⟩
  | .hbm, ⟨26, _⟩ => ⟨S512x4096, .i32⟩
  | .hbm, ⟨27, _⟩ => ⟨S512x4096, .i32⟩
  | .hbm, ⟨28, _⟩ => ⟨S512x4096, .i32⟩
  | .hbm, ⟨29, _⟩ => ⟨S512x4096x1, .i32⟩
  | .hbm, ⟨30, _⟩ => ⟨S512x4096x8, .f32⟩
  | .hbm, ⟨31, _⟩ => ⟨S512x8x4096, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .bf16⟩
  | .hbm, ⟨41, _⟩ => ⟨S16384x4096, .f32⟩
  | .hbm, ⟨42, _⟩ => ⟨S16384x4096, .f32⟩
  | .hbm, ⟨43, _⟩ => ⟨S4x4096x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x32768_S4096x8 : S1x32768.ShapeCasts S4096x8
  shapeCasts_S1x512x4096_S512x4096 : S1x512x4096.ShapeCasts S512x4096
  bcast_S_S512x4096 : S_.BroadcastsInDim S512x4096 (![] : Fin 0 → Fin S512x4096.rank)
  bcast_S512x4096_S512x4096x1_0_1 : S512x4096.BroadcastsInDim S512x4096x1 (![0, 1] : Fin 2 → Fin S512x4096x1.rank)
  transposes_S512x4096x8_S512x8x4096_0_2_1 : S512x4096x8.Transposes [0, 2, 1] S512x8x4096
  shapeCasts_S512x8x4096_S4096x4096 : S512x8x4096.ShapeCasts S4096x4096
  shapeCasts_S1x2048_S256x8 : S1x2048.ShapeCasts S256x8
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bitsLt_bf16_f32 : FTy.bits .bf16 < FTy.bits .f32
  shapeCasts_S4x4096x4096_S16384x4096 : S4x4096x4096.ShapeCasts S16384x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S16384x4096_S4x4096x4096 : S16384x4096.ShapeCasts S4x4096x4096
  gather_S4096x8_S512x4096x1_S512x4096x8_2_0_n_n_0_2_18_wf : GatherDims.WF S4096x8 S512x4096x1 S512x4096x8 [2] [0] [] [0] [] 2 ![1, 8]
  gather_S256x8_S512x4096x1_S512x4096x8_2_0_n_n_0_2_18_wf : GatherDims.WF S256x8 S512x4096x1 S512x4096x8 [2] [0] [] [0] [] 2 ![1, 8]
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S16384x4096.size a
  hwx0_2 : ∀ i : grid0.Coords, EltTy.bits .f32 = 32 ∨ (Rect.block (s := S16384x4096) S128x4096.size (cc0_transform_2 i) (hinb0_2 i)).WholeWords (EltTy.packing .f32)

variable [Facts₀]

def gather_S4096x8_S512x4096x1_S512x4096x8_2_0_n_n_0_2_18 : GatherDims S4096x8 S512x4096x1 S512x4096x8 where
  offsetDims := [2]
  collapsedSliceDims := [0]
  operandBatchingDims := []
  startIndicesBatchingDims := []
  startIndexMap := [0]
  indexVectorDim := 2
  sliceSizes := ![1, 8]
  wf := gather_S4096x8_S512x4096x1_S512x4096x8_2_0_n_n_0_2_18_wf
def gather_S256x8_S512x4096x1_S512x4096x8_2_0_n_n_0_2_18 : GatherDims S256x8 S512x4096x1 S512x4096x8 where
  offsetDims := [2]
  collapsedSliceDims := [0]
  operandBatchingDims := []
  startIndicesBatchingDims := []
  startIndexMap := [0]
  indexVectorDim := 2
  sliceSizes := ![1, 8]
  wf := gather_S256x8_S512x4096x1_S512x4096x8_2_0_n_n_0_2_18_wf
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_v30) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S1x32768 : Shape := ⟨2, ![1, 32768]⟩
abbrev S1x512x4096 : Shape := ⟨3, ![1, 512, 4096]⟩
abbrev S1x2048 : Shape := ⟨2, ![1, 2048]⟩
abbrev S4096 : Shape := ⟨1, ![4096]⟩
abbrev S1x4096x8 : Shape := ⟨3, ![1, 4096, 8]⟩
abbrev S_ : Shape := ⟨0, ![]⟩
abbrev S1x512x4096x1 : Shape := ⟨4, ![1, 512, 4096, 1]⟩
abbrev S1x512x4096x8 : Shape := ⟨4, ![1, 512, 4096, 8]⟩
abbrev S1x512x8x4096 : Shape := ⟨4, ![1, 512, 8, 4096]⟩
abbrev S1x4096x4096 : Shape := ⟨3, ![1, 4096, 4096]⟩
abbrev S1x256x8 : Shape := ⟨3, ![1, 256, 8]⟩
abbrev S4096x1x4096 : Shape := ⟨3, ![4096, 1, 4096]⟩
abbrev S4096x4096 : Shape := ⟨2, ![4096, 4096]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x32768, .f32⟩
  | .hbm, ⟨2, _⟩ => ⟨S1x512x4096, .i32⟩
  | .hbm, ⟨3, _⟩ => ⟨S1x2048, .f32⟩
  | .hbm, ⟨4, _⟩ => ⟨S1x512x4096, .i32⟩
  | .hbm, ⟨5, _⟩ => ⟨S4096, .f32⟩
  | .hbm, ⟨6, _⟩ => ⟨S4096, .f32⟩
  | .hbm, ⟨7, _⟩ => ⟨S1x4096x8, .f32⟩
  | .hbm, ⟨8, _⟩ => ⟨S_, .i32⟩
  | .hbm, ⟨9, _⟩ => ⟨S1x512x4096, .i32⟩
  | .hbm, ⟨10, _⟩ => ⟨S1x512x4096, .i1⟩
  | .hbm, ⟨11, _⟩ => ⟨S_, .i32⟩
  | .hbm, ⟨12, _⟩ => ⟨S1x512x4096, .i32⟩
  | .hbm, ⟨13, _⟩ => ⟨S1x512x4096, .i32⟩
  | .hbm, ⟨14, _⟩ => ⟨S1x512x4096, .i32⟩
  | .hbm, ⟨15, _⟩ => ⟨S1x512x4096x1, .i32⟩
  | .hbm, ⟨16, _⟩ => ⟨S1x512x4096x8, .f32⟩
  | .hbm, ⟨17, _⟩ => ⟨S1x512x8x4096, .f32⟩
  | .hbm, ⟨18, _⟩ => ⟨S1x4096x4096, .f32⟩
  | .hbm, ⟨19, _⟩ => ⟨S1x256x8, .f32⟩
  | .hbm, ⟨20, _⟩ => ⟨S_, .i32⟩
  | .hbm, ⟨21, _⟩ => ⟨S1x512x4096, .i32⟩
  | .hbm, ⟨22, _⟩ => ⟨S1x512x4096, .i1⟩
  | .hbm, ⟨23, _⟩ => ⟨S_, .i32⟩
  | .hbm, ⟨24, _⟩ => ⟨S1x512x4096, .i32⟩
  | .hbm, ⟨25, _⟩ => ⟨S1x512x4096, .i32⟩
  | .hbm, ⟨26, _⟩ => ⟨S1x512x4096, .i32⟩
  | .hbm, ⟨27, _⟩ => ⟨S1x512x4096x1, .i32⟩
  | .hbm, ⟨28, _⟩ => ⟨S1x512x4096x8, .f32⟩
  | .hbm, ⟨29, _⟩ => ⟨S1x512x8x4096, .f32⟩
  | .hbm, ⟨30, _⟩ => ⟨S1x4096x4096, .f32⟩
  | .hbm, ⟨31, _⟩ => ⟨S1x4096x4096, .f32⟩
  | .hbm, ⟨32, _⟩ => ⟨S4096x1x4096, .f32⟩
  | .hbm, ⟨33, _⟩ => ⟨S4096x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S1x32768_S1x4096x8 : S1x32768.ShapeCasts S1x4096x8
  bcast_S_S1x512x4096 : S_.BroadcastsInDim S1x512x4096 (![] : Fin 0 → Fin S1x512x4096.rank)
  bcast_S1x512x4096_S1x512x4096x1_0_1_2 : S1x512x4096.BroadcastsInDim S1x512x4096x1 (![0, 1, 2] : Fin 3 → Fin S1x512x4096x1.rank)
  transposes_S1x512x4096x8_S1x512x8x4096_0_1_3_2 : S1x512x4096x8.Transposes [0, 1, 3, 2] S1x512x8x4096
  shapeCasts_S1x512x8x4096_S1x4096x4096 : S1x512x8x4096.ShapeCasts S1x4096x4096
  shapeCasts_S1x2048_S1x256x8 : S1x2048.ShapeCasts S1x256x8
  transposes_S1x4096x4096_S4096x1x4096_1_0_2 : S1x4096x4096.Transposes [1, 0, 2] S4096x1x4096
  shapeCasts_S4096x1x4096_S4096x4096 : S4096x1x4096.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S1x4096x8_S1x512x4096x1_S1x512x4096x8_3_1_0_0_1_3_118_wf : GatherDims.WF S1x4096x8 S1x512x4096x1 S1x512x4096x8 [3] [1] [0] [1] [0] 3 ![1, 1, 8]
  gather_S1x256x8_S1x512x4096x1_S1x512x4096x8_3_1_0_0_1_3_118_wf : GatherDims.WF S1x256x8 S1x512x4096x1 S1x512x4096x8 [3] [1] [0] [1] [0] 3 ![1, 1, 8]
  dot_S4x4096x4096_S4096x4096_S4x4096x4096_2_1_01_0_n_n_wf : DotDims.WF S4x4096x4096 S4096x4096 S4x4096x4096 [2] [1] [0, 1] [0] [] []

variable [Facts₀]

def gather_S1x4096x8_S1x512x4096x1_S1x512x4096x8_3_1_0_0_1_3_118 : GatherDims S1x4096x8 S1x512x4096x1 S1x512x4096x8 where
  offsetDims := [3]
  collapsedSliceDims := [1]
  operandBatchingDims := [0]
  startIndicesBatchingDims := [0]
  startIndexMap := [1]
  indexVectorDim := 3
  sliceSizes := ![1, 1, 8]
  wf := gather_S1x4096x8_S1x512x4096x1_S1x512x4096x8_3_1_0_0_1_3_118_wf
def gather_S1x256x8_S1x512x4096x1_S1x512x4096x8_3_1_0_0_1_3_118 : GatherDims S1x256x8 S1x512x4096x1 S1x512x4096x8 where
  offsetDims := [3]
  collapsedSliceDims := [1]
  operandBatchingDims := [0]
  startIndicesBatchingDims := [0]
  startIndexMap := [1]
  indexVectorDim := 3
  sliceSizes := ![1, 1, 8]
  wf := gather_S1x256x8_S1x512x4096x1_S1x512x4096x8_3_1_0_0_1_3_118_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KernelBody.lean ====
/-
  The kernel body's one store, read at an index.

  The body loads a block of 128 rows of `x` and the whole weight matrix, and stores their product: each of the 128
  rows against each of the 4096 rows of the weight matrix, contracted along the shared axis of 4096 columns, added
  onto a zero accumulator. Both changes of float format are the identity on the extended reals, so entry (r, o) of
  the stored block is the sum over k of x[r, k] · W[o, k].
-/
import proofs.«410807_j24103356465280_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.KBody

open Cert.KernelIdeal Cert.KernelIdeal.Gen
open Idealize.ShloMosaic Idealize.ShloMosaic.ValueIdx

/-! ## Which operand entries a contraction index reads -/

/-- The left operand is read in the output's row. -/
theorem lhs_row (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide),
    dif_pos (show (0 : Fin S128x4096.rank) ∈ dot_S128x4096_S4096x4096_S128x4096_1_1_0_0_n_n.lhsNonContracting by decide)]
  rfl

/-- The left operand's column is the contraction coordinate. -/
theorem lhs_col (i : S128x4096.Idx) (q : dot_S128x4096_S4096x4096_S128x4096_1_1_0_0_n_n.contr.Idx) :
    (dot_S128x4096_S4096x4096_S128x4096_1_1_0_0_n_n.lhsIdx i q 1).val = (q ⟨0, by decide⟩).val :=
  dot_S128x4096_S4096x4096_S128x4096_1_1_0_0_n_n.lhsIdx_val_of_single rfl i q

/-- The right operand is read in the row the output's column names. -/
theorem rhs_row (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide),
    dif_pos (show (0 : Fin S4096x4096.rank) ∈ dot_S128x4096_S4096x4096_S128x4096_1_1_0_0_n_n.rhsNonContracting by decide)]
  rfl

/-- The right operand's column is the contraction coordinate. -/
theorem rhs_col (i : S128x4096.Idx) (q : dot_S128x4096_S4096x4096_S128x4096_1_1_0_0_n_n.contr.Idx) :
    (dot_S128x4096_S4096x4096_S128x4096_1_1_0_0_n_n.rhsIdx i q 1).val = (q ⟨0, by decide⟩).val :=
  dot_S128x4096_S4096x4096_S128x4096_1_1_0_0_n_n.rhsIdx_val_of_single rfl i q

/-! ## The stored block -/

/-- Entry (r, o) of the block the body stores: row r of the loaded block of `x` against row o of the weight matrix. -/
theorem stored_at (x0 : Vec Ideal S128x4096 .f32) (x1 : Vec Ideal S4096x4096 .bf16) (r : Fin 128) (o : Fin 4096) :
    k0_pay1 (F := Ideal) x0 x1 (ix2 r o) = ∑ k : Fin 4096, x0 (ix2 r k) * x1 (ix2 o k) := by
  unfold k0_pay1
  rw [shapeCast_self, shapeCast_self]
  refine (Ideal.matmul_constant_zero_apply (φ₁ := .bf16) (φ₂ := .bf16) dot_S128x4096_S4096x4096_S128x4096_1_1_0_0_n_n none
    (truncf .bf16 x0 bitsLt_bf16_f32) x1 (ix2 r o)).trans ?_
  rw [← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : dot_S128x4096_S4096x4096_S128x4096_1_1_0_0_n_n.lhsIdx (ix2 r o)
      ((contrEquiv1 dot_S128x4096_S4096x4096_S128x4096_1_1_0_0_n_n 4096 rfl rfl).symm k) = ix2 r k := funext fun a => Fin.ext (by
    match a with
    | ⟨0, _⟩ => exact lhs_row _ _
    | ⟨1, _⟩ => exact (lhs_col _ _).trans hk)
  have er : dot_S128x4096_S4096x4096_S128x4096_1_1_0_0_n_n.rhsIdx (ix2 r o)
      ((contrEquiv1 dot_S128x4096_S4096x4096_S128x4096_1_1_0_0_n_n 4096 rfl rfl).symm k) = ix2 o k := funext fun a => Fin.ext (by
    match a with
    | ⟨0, _⟩ => exact rhs_row _ _
    | ⟨1, _⟩ => exact (rhs_col _ _).trans hk)
  rw [el, er]
  rfl

end Cert.KernelIdeal.KBody

end
-- ==== Proof.KernelArray.lean ====
/-
  From blocks to the array: what the matrix-product region leaves in its output array.

  The region walks 128 grid points. Point t reads rows 128·t … 128·t + 127 of the row matrix (16384 × 4096) and the
  whole weight matrix, and writes back rows 128·t … 128·t + 127 of the output. What it writes back is the block of one
  whole-array function: entry (y, o) of the output is the sum over k of rows[y, k] · W[o, k]. The 128 blocks tile the
  output, so the array ends holding that function everywhere.
-/
import proofs.«410807_j24103356465280_1_alg».proof.Proof.Gen.KernelIdeal.Frame
import proofs.«410807_j24103356465280_1_alg».proof.Proof.KernelBody
import Idealize.ShloMosaic.Lib.Pipeline.Value
import Idealize.ShloMosaic.Lib.ValueIdx

set_option maxRecDepth 16384

noncomputable section

open scoped BigOperators

namespace Cert.KernelIdeal.KArray

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The row matrix and the weight matrix as the region finds them. -/
abbrev rowsIn (c : Dev nD) : FVec Ideal S16384x4096 .f32 := V m c main_v30
abbrev weightIn (c : Dev nD) : FVec Ideal S4096x4096 .bf16 := V m c main_v29

/-- Every row against every row of the weight matrix. -/
def rowsTimes (X : FVec Ideal S16384x4096 .f32) (W : FVec Ideal S4096x4096 .bf16) : FVec Ideal S16384x4096 .f32 :=
  fun y => ∑ k : Fin 4096, X (ix2 (y 0) k) * W (ix2 (y 1) k)

/-- The index maps over the grid: rows and output move together, one block of 128 rows per point; the weight matrix
    and every column block stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `rowsTimes`. -/
theorem flushed_eq (c : Dev nD) (t : Fin cfg0.N) :
    (dats m 0 c).flushed 2 t = ((cfg0.win 2).blk t).view.read (Elt Ideal) (rowsTimes (rowsIn m c) (weightIn m c)) := by
  show (cfg0.win 2).cut (grid0.coords t) ((dats m 0 c).after 2 t) = _
  rw [after0_2]
  unfold out0_2
  rw [View.canon_unit_zero origin]
  simp only [View.ld_unit_zero (S := S128x4096) origin, View.ld_unit_zero (S := S4096x4096) origin]
  obtain ⟨e0, e1, e2, e3, e4, e5⟩ := idx_facts t
  funext j
  obtain ⟨r, o, rfl⟩ : ∃ (r : Fin 128) (o : Fin 4096), j = ix2 r o := ⟨j 0, j 1, eq_ix2 j⟩
  show k0_pay1 (F := Ideal) (iblk m c 0 t) (iblk m c 1 t) (ix2 r o)
    = rowsTimes (rowsIn m c) (weightIn m c) (((cfg0.win 2).blk t).view.emb (ix2 r o))
  refine (KBody.stored_at (iblk m c 0 t) (iblk m c 1 t) r o).trans ?_
  unfold rowsTimes
  refine Finset.sum_congr rfl fun k _ => ?_
  show rowsIn m c (((cfg0.win 0).blk t).view.emb (ix2 r k)) * weightIn m c (((cfg0.win 1).blk t).view.emb (ix2 o k))
    = rowsIn m c (ix2 ((((cfg0.win 2).blk t).view.emb (ix2 r o)) 0) k) * weightIn m c (ix2 ((((cfg0.win 2).blk t).view.emb (ix2 r o)) 1) k)
  have hr := r.isLt
  have ho := o.isLt
  have hk := k.isLt
  have h0 : ((cfg0.win 0).blk t).view.emb (ix2 r k) = ix2 ((((cfg0.win 2).blk t).view.emb (ix2 r o)) 0) k := by
    funext a; apply Fin.ext
    match a with
    | ⟨0, _⟩ => show win0_0.index t (0 : Fin 2) * 128 + 1 * r.val = win0_2.index t (0 : Fin 2) * 128 + 1 * r.val; omega
    | ⟨1, _⟩ => show win0_0.index t (1 : Fin 2) * 4096 + 1 * k.val = k.val; omega
  have h1 : ((cfg0.win 1).blk t).view.emb (ix2 o k) = ix2 ((((cfg0.win 2).blk t).view.emb (ix2 r o)) 1) k := by
    funext a; apply Fin.ext
    match a with
    | ⟨0, _⟩ => show win0_1.index t (0 : Fin 2) * 4096 + 1 * o.val = win0_2.index t (1 : Fin 2) * 4096 + 1 * o.val; omega
    | ⟨1, _⟩ => show win0_1.index t (1 : Fin 2) * 4096 + 1 * k.val = k.val; omega
  rw [h0, h1]
  rfl

/-- An index of the output is in point `t`'s block iff each coordinate is in the block's range on its axis. -/
theorem mem_blk (t : Fin cfg0.N) (i : S16384x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v31).slice (win0_2.rect t)).set ↔ _
  rw [View.set_slice_whole, Rect.mem_set_unit]
  exact Iff.rfl

/-- Row `y` of the output lies in the block of point `y / 128`. -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 128 := N_0
  have hlt : (i 0).val / 128 < cfg0.N := by rw [hN]; omega
  obtain ⟨e0, e1, e2, e3, e4, e5⟩ := idx_facts ⟨(i 0).val / 128, hlt⟩
  refine ⟨⟨(i 0).val / 128, hlt⟩, flush0_2 _, ?_⟩
  rw [mem_blk]
  intro a
  match a with
  | ⟨0, _⟩ =>
    show win0_2.index ⟨(i 0).val / 128, hlt⟩ (0 : Fin 2) * 128 ≤ (i 0).val
      ∧ (i 0).val < win0_2.index ⟨(i 0).val / 128, hlt⟩ (0 : Fin 2) * 128 + 128
    rw [e4]
    show (i 0).val / 128 * 128 ≤ (i 0).val ∧ (i 0).val < (i 0).val / 128 * 128 + 128
    omega
  | ⟨1, _⟩ =>
    show win0_2.index ⟨(i 0).val / 128, hlt⟩ (1 : Fin 2) * 4096 ≤ (i 1).val
      ∧ (i 1).val < win0_2.index ⟨(i 0).val / 128, hlt⟩ (1 : Fin 2) * 4096 + 4096
    rw [e5]
    omega

/-- The output array after the region: every row against every row of the weight matrix. -/
theorem final (c : Dev nD) : (dats m 0 c).arrAt 2 cfg0.N = rowsTimes (rowsIn m c) (weightIn m c) :=
  (dats m 0 c).arrAt_eq_of_cover 2 (rowsTimes (rowsIn m c) (weightIn m c)) (fun t _ => flushed_eq m c t) (cover)

end Cert.KernelIdeal.KArray

end
-- ==== Proof.LibRowGather.lean ====
/-
  A gather of whole rows of a table, read at an index.

  `table[idx]` for a table of N rows of V entries and an integer array `idx` of shape [R, C] gives an array
  [R, C, V] whose entry (p, q, v) is entry v of the row that `idx[p, q]` names. The index word is read as a signed
  integer and clamped into [0, N - 1], as every start index of a gather is, so the row is
  `min (idx[p, q]).toInt.toNat (N - 1)`: a negative word lands on row 0, a word past the end on row N - 1.

  Two spellings of the same operation are read here: the plain one (table [N, V], indices carried as [R, C, 1],
  the row axis collapsed), and the one with a leading batch axis of extent one on the table, the indices and the
  result (the row axis collapsed, the batch axis paired between table and indices). Both give the same row.
-/
import Idealize.ShloMosaic.Lib.ValueIdx

noncomputable section

namespace RowGather

open Idealize.ShloMosaic Idealize.ShloMosaic.ValueIdx

variable {α : Type}

/-! ## The plain spelling -/

/-- The dimension numbers of `table[idx]` for a table [N, V] and indices [R, C, 1]: the result's last axis runs
    along a row, the table's row axis is collapsed and is the one the start index addresses. -/
abbrev plainDims (N V R C : Nat)
    (wf : GatherDims.WF ⟨2, ![N, V]⟩ ⟨3, ![R, C, 1]⟩ ⟨3, ![R, C, V]⟩ [2] [0] [] [0] [] 2 ![1, V]) :
    GatherDims ⟨2, ![N, V]⟩ ⟨3, ![R, C, 1]⟩ ⟨3, ![R, C, V]⟩ where
  offsetDims := [2]
  collapsedSliceDims := [0]
  operandBatchingDims := []
  startIndicesBatchingDims := []
  startIndexMap := [0]
  indexVectorDim := 2
  sliceSizes := ![1, V]
  wf := wf

/-- Entry (p, q, v) of the gathered array is entry v of the table's row named by `idx[p, q, 0]`, clamped. -/
theorem plain_apply {N V R C w : Nat} (hN : 0 < N)
    (wf : GatherDims.WF ⟨2, ![N, V]⟩ ⟨3, ![R, C, 1]⟩ ⟨3, ![R, C, V]⟩ [2] [0] [] [0] [] 2 ![1, V])
    (x : (⟨2, ![N, V]⟩ : Shape).Idx → α) (idx : IVec ⟨3, ![R, C, 1]⟩ w) (p : Fin R) (q : Fin C) (v : Fin V) :
    Host.gather (plainDims N V R C wf) x idx (ix3 p q v)
      = x (ix2 ⟨min (idx (ix3 p q (0 : Fin 1))).toInt.toNat (N - 1), by omega⟩ v) := by
  unfold Host.gather
  refine congrArg x (funext fun a => Fin.ext ?_)
  match a with
  | ⟨0, _⟩ =>
    -- the row axis: the clamped start index, no batch coordinate, no offset (the axis is collapsed)
    show (plainDims N V R C wf).start (ix3 p q v) idx (0 : Fin 2) + (plainDims N V R C wf).batchCoord (ix3 p q v) (0 : Fin 2)
        + (plainDims N V R C wf).offCoord (ix3 p q v) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (plainDims N V R C wf).startIndexMap from List.mem_singleton.mpr rfl)]
    have hsi : (plainDims N V R C wf).siIdx (ix3 p q v) ⟨List.idxOf (0 : Fin 2) (plainDims N V R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, _⟩ =>
    -- the axis along a row: no start index, no batch coordinate, the result's last coordinate as offset
    show (plainDims N V R C wf).start (ix3 p q v) idx (1 : Fin 2) + (plainDims N V R C wf).batchCoord (ix3 p q v) (1 : Fin 2)
        + (plainDims N V R C wf).offCoord (ix3 p q v) (1 : Fin 2) = v.val
    have hs : (plainDims N V R C wf).start (ix3 p q v) idx (1 : Fin 2) = 0 := by
      unfold GatherDims.start
      exact dif_neg (fun h => Nat.one_ne_zero (congrArg Fin.val (List.mem_singleton.mp h)))
    have hk : (1 : Fin 2) ∈ (plainDims N V R C wf).sKept :=
      (GatherDims.mem_sKept _ _).mpr ⟨fun h => Nat.one_ne_zero (congrArg Fin.val (List.mem_singleton.mp h)), List.not_mem_nil⟩
    rw [hs, GatherDims.batchCoord_eq_zero _ _ _ List.not_mem_nil]
    unfold GatherDims.offCoord
    rw [dif_pos hk]
    simp only [Nat.zero_add]
    rfl

/-! ## The spelling with a leading batch axis of extent one -/

/-- The dimension numbers of the same gather when table, indices and result all carry a leading axis of extent one
    that is paired as a batch axis: table [1, N, V], indices [1, R, C, 1], result [1, R, C, V]. -/
abbrev batchedDims (N V R C : Nat)
    (wf : GatherDims.WF ⟨3, ![1, N, V]⟩ ⟨4, ![1, R, C, 1]⟩ ⟨4, ![1, R, C, V]⟩ [3] [1] [0] [1] [0] 3 ![1, 1, V]) :
    GatherDims ⟨3, ![1, N, V]⟩ ⟨4, ![1, R, C, 1]⟩ ⟨4, ![1, R, C, V]⟩ where
  offsetDims := [3]
  collapsedSliceDims := [1]
  operandBatchingDims := [0]
  startIndicesBatchingDims := [0]
  startIndexMap := [1]
  indexVectorDim := 3
  sliceSizes := ![1, 1, V]
  wf := wf

/-- Entry (0, p, q, v) of the gathered array is entry v of the row of batch 0 named by `idx[0, p, q, 0]`, clamped. -/
theorem batched_apply {N V R C w : Nat} (hN : 0 < N)
    (wf : GatherDims.WF ⟨3, ![1, N, V]⟩ ⟨4, ![1, R, C, 1]⟩ ⟨4, ![1, R, C, V]⟩ [3] [1] [0] [1] [0] 3 ![1, 1, V])
    (x : (⟨3, ![1, N, V]⟩ : Shape).Idx → α) (idx : IVec ⟨4, ![1, R, C, 1]⟩ w) (p : Fin R) (q : Fin C) (v : Fin V) :
    Host.gather (batchedDims N V R C wf) x idx (ix4 (0 : Fin 1) p q v)
      = x (ix3 (0 : Fin 1) ⟨min (idx (ix4 (0 : Fin 1) p q (0 : Fin 1))).toInt.toNat (N - 1), by omega⟩ v) := by
  unfold Host.gather
  refine congrArg x (funext fun a => Fin.ext ?_)
  have h01 : ¬ (0 : Fin 3) ∈ ([1] : List (Fin 3)) := fun h => Nat.one_ne_zero (congrArg Fin.val (List.mem_singleton.mp h)).symm
  have h10 : ¬ (1 : Fin 3) ∈ ([0] : List (Fin 3)) := fun h => Nat.one_ne_zero (congrArg Fin.val (List.mem_singleton.mp h))
  have h21 : ¬ (2 : Fin 3) ∈ ([1] : List (Fin 3)) := fun h => by have := congrArg Fin.val (List.mem_singleton.mp h); omega
  have h20 : ¬ (2 : Fin 3) ∈ ([0] : List (Fin 3)) := fun h => by have := congrArg Fin.val (List.mem_singleton.mp h); omega
  match a with
  | ⟨0, _⟩ =>
    -- the batch axis: the result's batch coordinate, which is 0
    show (batchedDims N V R C wf).start (ix4 (0 : Fin 1) p q v) idx (0 : Fin 3) + (batchedDims N V R C wf).batchCoord (ix4 (0 : Fin 1) p q v) (0 : Fin 3)
        + (batchedDims N V R C wf).offCoord (ix4 (0 : Fin 1) p q v) (0 : Fin 3) = 0
    have hb : (0 : Fin 3) ∈ (batchedDims N V R C wf).operandBatchingDims := List.mem_singleton.mpr rfl
    rw [GatherDims.start_batching _ _ _ _ hb,
      GatherDims.offCoord_eq_zero _ _ _ (fun h => ((GatherDims.mem_sKept _ _).mp h).2 hb)]
    have := GatherDims.batchCoord_lt (batchedDims N V R C wf) (ix4 (0 : Fin 1) p q v) (0 : Fin 3) hb
    have h1 : (⟨3, ![1, N, V]⟩ : Shape).size (0 : Fin 3) = 1 := rfl
    omega
  | ⟨1, _⟩ =>
    -- the row axis: the clamped start index
    show (batchedDims N V R C wf).start (ix4 (0 : Fin 1) p q v) idx (1 : Fin 3) + (batchedDims N V R C wf).batchCoord (ix4 (0 : Fin 1) p q v) (1 : Fin 3)
        + (batchedDims N V R C wf).offCoord (ix4 (0 : Fin 1) p q v) (1 : Fin 3) = _
    rw [GatherDims.batchCoord_eq_zero _ _ _ h10,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (batchedDims N V R C wf).startIndexMap from List.mem_singleton.mpr rfl)]
    have hsi : (batchedDims N V R C wf).siIdx (ix4 (0 : Fin 1) p q v) ⟨List.idxOf (1 : Fin 3) (batchedDims N V R C wf).startIndexMap,
        List.idxOf_lt_length_iff.2 (List.mem_singleton.mpr rfl)⟩ = ix4 (0 : Fin 1) p q (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    -- the axis along a row: the result's last coordinate as offset
    show (batchedDims N V R C wf).start (ix4 (0 : Fin 1) p q v) idx (2 : Fin 3) + (batchedDims N V R C wf).batchCoord (ix4 (0 : Fin 1) p q v) (2 : Fin 3)
        + (batchedDims N V R C wf).offCoord (ix4 (0 : Fin 1) p q v) (2 : Fin 3) = v.val
    have hs : (batchedDims N V R C wf).start (ix4 (0 : Fin 1) p q v) idx (2 : Fin 3) = 0 := by
      unfold GatherDims.start
      exact dif_neg h21
    have hk : (2 : Fin 3) ∈ (batchedDims N V R C wf).sKept := (GatherDims.mem_sKept _ _).mpr ⟨h21, h20⟩
    rw [hs, GatherDims.batchCoord_eq_zero _ _ _ h20]
    unfold GatherDims.offCoord
    rw [dif_pos hk]
    simp only [Nat.zero_add]
    rfl

end RowGather

end
-- ==== Proof.Dequant.lean ====
/-
  The specification: a linear layer whose weight matrix is stored vector-quantised.

  The 4096 × 4096 weight matrix W is stored as two codebooks and two index arrays. Its 4096 output rows are grouped
  in 512 groups of 8 consecutive rows; for group g and input column i, `indices[0, g, i]` names a row (8 entries) of
  the main codebook (4096 rows, stored flat as [1, 4096 · 8]) and `res_indices[0, g, i]` a row of the residual codebook
  (256 rows, stored flat as [1, 256 · 8]); entry v of the two rows, added, is the raw weight of output row 8g + v at
  column i. A per-column affine map (scale and bias, indexed by the input column) finishes it:

      W[o, i] = (cb[row(indices[0, o / 8, i]), o % 8] + rcb[row'(res_indices[0, o / 8, i]), o % 8]) · scale[i] + bias[i].

  An index word is normalised as jnp does (a negative word counts from the end of the axis), read as a signed integer
  and clamped into the table. The layer's result is y[b, s, o] = Σ_k x[b, s, k] · W[o, k], a sum of 4096 products on the
  extended reals.
-/
import Idealize.ShloMosaic.Lib.ValueIdx

noncomputable section

open scoped BigOperators

namespace Dequant

open Idealize.ShloMosaic Idealize.ShloMosaic.ValueIdx

/-- jnp's normalisation of an index word against an axis of extent `n`: a negative word has `n` added. -/
def wrapIdx (n w : BitVec 32) : BitVec 32 := Scalar.select (IntOp.cmpi .slt w 0#32) (IntOp.addi w n) w

/-- The row of an `N`-row table an index word names: normalised, read signed, clamped into [0, N - 1]. -/
def rowOf (N : Nat) (hN : 0 < N) (n w : BitVec 32) : Fin N := ⟨min (wrapIdx n w).toInt.toNat (N - 1), by omega⟩

/-- Entry `v` of row `r` of the main codebook, stored flat. -/
def cbAt (cb : FVec Ideal ⟨2, ![1, 32768]⟩ .f32) (r : Fin 4096) (v : Fin 8) : EReal :=
  cb (ix2 (0 : Fin 1) ⟨r.val * 8 + v.val, by have := r.isLt; have := v.isLt; omega⟩)

/-- Entry `v` of row `r` of the residual codebook, stored flat. -/
def rcbAt (rcb : FVec Ideal ⟨2, ![1, 2048]⟩ .f32) (r : Fin 256) (v : Fin 8) : EReal :=
  rcb (ix2 (0 : Fin 1) ⟨r.val * 8 + v.val, by have := r.isLt; have := v.isLt; omega⟩)

/-- The group of eight output rows that output row `o` lies in, and its place in the group. -/
def grp (o : Fin 4096) : Fin 512 := ⟨o.val / 8, by have := o.isLt; omega⟩
def lane (o : Fin 4096) : Fin 8 := ⟨o.val % 8, by omega⟩

/-- The dequantised weight at output row `o`, input column `i`. -/
def weightAt (cb : FVec Ideal ⟨2, ![1, 32768]⟩ .f32) (ix : IVec ⟨3, ![1, 512, 4096]⟩ 32)
    (rcb : FVec Ideal ⟨2, ![1, 2048]⟩ .f32) (rix : IVec ⟨3, ![1, 512, 4096]⟩ 32)
    (sc bi : FVec Ideal ⟨1, ![4096]⟩ .f32) (o i : Fin 4096) : EReal :=
  (cbAt cb (rowOf 4096 (by decide) 4096#32 (ix (ix3 (0 : Fin 1) (grp o) i))) (lane o)
    + rcbAt rcb (rowOf 256 (by decide) 256#32 (rix (ix3 (0 : Fin 1) (grp o) i))) (lane o)) * sc (ix1 i) + bi (ix1 i)

/-- The dequantised weight matrix. -/
def weight (cb : FVec Ideal ⟨2, ![1, 32768]⟩ .f32) (ix : IVec ⟨3, ![1, 512, 4096]⟩ 32)
    (rcb : FVec Ideal ⟨2, ![1, 2048]⟩ .f32) (rix : IVec ⟨3, ![1, 512, 4096]⟩ 32)
    (sc bi : FVec Ideal ⟨1, ![4096]⟩ .f32) : FVec Ideal ⟨2, ![4096, 4096]⟩ .f32 :=
  fun j => weightAt cb ix rcb rix sc bi (j 0) (j 1)

/-- The layer: every row of `x` against every row of the weight matrix. -/
def product (x : FVec Ideal ⟨3, ![4, 4096, 4096]⟩ .f32) (wt : FVec Ideal ⟨2, ![4096, 4096]⟩ .f32) :
    FVec Ideal ⟨3, ![4, 4096, 4096]⟩ .f32 :=
  fun j => ∑ k : Fin 4096, x (ix3 (j 0) (j 1) k) * wt (ix2 (j 2) k)

end Dequant

end
-- ==== Proof.KernelWeights.lean ====
/-
  The kernel's weight matrix: what the host lines before the matrix product compute, read at an index.

  The kernel dequantises on the host: both codebooks are reshaped to tables of rows of eight, both index arrays lose
  their leading axis of extent one and are normalised, each table's rows are gathered, the last two axes are exchanged
  and group and lane are merged into the output axis, the two matrices are added, and the per-column scale and bias are
  applied. A final change of float format is the identity on the extended reals. Read at (o, i) this is the
  specification's weight.
-/
import proofs.«410807_j24103356465280_1_alg».proof.Proof.Gen.KernelIdeal
import proofs.«410807_j24103356465280_1_alg».proof.Proof.LibRowGather
import proofs.«410807_j24103356465280_1_alg».proof.Proof.Dequant
import Idealize.ShloMosaic.Lib.Pipeline.Value
import Idealize.ShloMosaic.Lib.ValueIdx

noncomputable section

namespace Cert.KernelIdeal.KValue

open Cert.KernelIdeal
open Idealize.ShloMosaic Idealize.ShloMosaic.ValueIdx Facts₀

variable {F : FTy → Type} [FloatOps F]

/-! ## The host lines as one term -/

/-- An index array without its leading axis. -/
def flatWords (x : IVec S1x512x4096 32) : IVec S512x4096 32 := shapeCast S512x4096 x shapeCasts_S1x512x4096_S512x4096

/-- The start indices of a gather from a table of `n` rows: the words normalised, with a trailing axis of extent one. -/
def startWords (n : BitVec 32) (x : IVec S1x512x4096 32) : IVec S512x4096x1 32 :=
  broadcastInDim S512x4096x1 ![0, 1] bcast_S512x4096_S512x4096x1_0_1
    (select (cmpi .slt (flatWords x) (broadcastInDim S512x4096 ![] bcast_S_S512x4096 (constantI S_ 32 0#32)))
      (addi (flatWords x) (broadcastInDim S512x4096 ![] bcast_S_S512x4096 (constantI S_ 32 n))) (flatWords x))

/-- The main codebook's rows laid out along the output axis. -/
def mainRows (x1 : FVec F S1x32768 .f32) (x2 : IVec S1x512x4096 32) : FVec F S4096x4096 .f32 :=
  shapeCast S4096x4096
    (transpose S512x8x4096 [0, 2, 1]
      (Host.gather gather_S4096x8_S512x4096x1_S512x4096x8_2_0_n_n_0_2_18 (shapeCast S4096x8 x1 shapeCasts_S1x32768_S4096x8)
        (startWords 4096#32 x2))
      transposes_S512x4096x8_S512x8x4096_0_2_1)
    shapeCasts_S512x8x4096_S4096x4096

/-- The residual codebook's rows laid out along the output axis. -/
def resRows (x3 : FVec F S1x2048 .f32) (x4 : IVec S1x512x4096 32) : FVec F S4096x4096 .f32 :=
  shapeCast S4096x4096
    (transpose S512x8x4096 [0, 2, 1]
      (Host.gather gather_S256x8_S512x4096x1_S512x4096x8_2_0_n_n_0_2_18 (shapeCast S256x8 x3 shapeCasts_S1x2048_S256x8)
        (startWords 256#32 x4))
      transposes_S512x4096x8_S512x8x4096_0_2_1)
    shapeCasts_S512x8x4096_S4096x4096

/-- A vector over the input columns, repeated down the rows. -/
def downRows (x : FVec F S4096 .f32) : FVec F S4096x4096 .f32 :=
  broadcastInDim S4096x4096 ![0, 1] bcast_S1x4096_S4096x4096_0_1 (broadcastInDim S1x4096 ![1] bcast_S4096_S1x4096_1 x)

/-- The weight matrix the kernel's matrix product is handed. -/
def kWeight (x1 : FVec F S1x32768 .f32) (x2 : IVec S1x512x4096 32) (x3 : FVec F S1x2048 .f32) (x4 : IVec S1x512x4096 32)
    (x5 x6 : FVec F S4096 .f32) : FVec F S4096x4096 .bf16 :=
  truncf .bf16 (addf (mulf (addf (mainRows x1 x2) (resRows x3 x4)) (downRows x5)) (downRows x6)) bitsLt_bf16_f32

/-! ## Read at an index -/

/-- An index array without its leading axis, at (p, q). -/
theorem flatWords_at (x : IVec S1x512x4096 32) (p : Fin 512) (q : Fin 4096) : flatWords x (ix2 p q) = x (ix3 (0 : Fin 1) p q) := by
  unfold flatWords
  refine shapeCast_apply x shapeCasts_S1x512x4096_S512x4096 (ix2 p q) (ix3 (0 : Fin 1) p q) ?_
  rewrite [Shape.rowMajor_val_three, Shape.rowMajor_val_two]
  show (0 * 512 + p.val) * 4096 + q.val = p.val * 4096 + q.val
  omega

/-- The start index at (p, q, 0) is the normalised word. -/
theorem startWords_at (n : BitVec 32) (x : IVec S1x512x4096 32) (p : Fin 512) (q : Fin 4096) :
    startWords n x (ix3 p q (0 : Fin 1)) = Dequant.wrapIdx n (x (ix3 (0 : Fin 1) p q)) := by
  unfold startWords
  rw [broadcastInDim_apply _ bcast_S512x4096_S512x4096x1_0_1 _ (ix3 p q (0 : Fin 1)) (ix2 p q) (fun a => match a with
    | ⟨0, _⟩ => by show p.val = if (512 : Nat) = 1 then 0 else p.val; rw [if_neg (by decide)]
    | ⟨1, _⟩ => by show q.val = if (4096 : Nat) = 1 then 0 else q.val; rw [if_neg (by decide)])]
  show Scalar.select (IntOp.cmpi .slt (flatWords x (ix2 p q)) (broadcastInDim S512x4096 ![] bcast_S_S512x4096 (constantI S_ 32 0#32) (ix2 p q)))
      (IntOp.addi (flatWords x (ix2 p q)) (broadcastInDim S512x4096 ![] bcast_S_S512x4096 (constantI S_ 32 n) (ix2 p q))) (flatWords x (ix2 p q)) = _
  rw [broadcastInDim_apply _ bcast_S_S512x4096 (constantI S_ 32 0#32) (ix2 p q) ix0 (fun a => a.elim0),
    broadcastInDim_apply _ bcast_S_S512x4096 (constantI S_ 32 n) (ix2 p q) ix0 (fun a => a.elim0), flatWords_at]
  rfl

/-- Merging group and lane after exchanging the last two axes: entry (o, i) comes from gathered entry (o / 8, i, o % 8). -/
theorem regroup_at {α : Type} (y : S512x4096x8.Idx → α) (o i : Fin 4096) :
    shapeCast S4096x4096 (transpose S512x8x4096 [0, 2, 1] y transposes_S512x4096x8_S512x8x4096_0_2_1)
      shapeCasts_S512x8x4096_S4096x4096 (ix2 o i) = y (ix3 (Dequant.grp o) i (Dequant.lane o)) := by
  have ho := o.isLt
  have hi := i.isLt
  rw [shapeCast_apply _ shapeCasts_S512x8x4096_S4096x4096 (ix2 o i) (ix3 (Dequant.grp o) (Dequant.lane o) i) (by
    rewrite [Shape.rowMajor_val_three, Shape.rowMajor_val_two]
    show (o.val / 8 * 8 + o.val % 8) * 4096 + i.val = o.val * 4096 + i.val
    omega)]
  exact transpose_apply [0, 2, 1] y transposes_S512x4096x8_S512x8x4096_0_2_1 (ix3 (Dequant.grp o) (Dequant.lane o) i)
    (ix3 (Dequant.grp o) i (Dequant.lane o)) (fun b => match b with
      | ⟨0, _⟩ => rfl
      | ⟨1, _⟩ => rfl
      | ⟨2, _⟩ => rfl)

/-- The main codebook's rows at (o, i). -/
theorem mainRows_at (x1 : FVec Ideal S1x32768 .f32) (x2 : IVec S1x512x4096 32) (o i : Fin 4096) :
    mainRows (F := Ideal) x1 x2 (ix2 o i)
      = Dequant.cbAt x1 (Dequant.rowOf 4096 (by decide) 4096#32 (x2 (ix3 (0 : Fin 1) (Dequant.grp o) i))) (Dequant.lane o) := by
  unfold mainRows
  rw [regroup_at]
  refine (RowGather.plain_apply (N := 4096) (V := 8) (R := 512) (C := 4096) (by decide)
    Facts₀.gather_S4096x8_S512x4096x1_S512x4096x8_2_0_n_n_0_2_18_wf _ _ (Dequant.grp o) i (Dequant.lane o)).trans ?_
  unfold Dequant.cbAt Dequant.rowOf
  refine shapeCast_apply x1 shapeCasts_S1x32768_S4096x8 _ _ ?_
  rewrite [Shape.rowMajor_val_two, Shape.rowMajor_val_two]
  show 0 * 32768 + (min (Dequant.wrapIdx 4096#32 (x2 (ix3 (0 : Fin 1) (Dequant.grp o) i))).toInt.toNat (4096 - 1) * 8 + (Dequant.lane o).val)
    = min (startWords 4096#32 x2 (ix3 (Dequant.grp o) i (0 : Fin 1))).toInt.toNat (4096 - 1) * 8 + (Dequant.lane o).val
  rw [startWords_at]
  omega

/-- The residual codebook's rows at (o, i). -/
theorem resRows_at (x3 : FVec Ideal S1x2048 .f32) (x4 : IVec S1x512x4096 32) (o i : Fin 4096) :
    resRows (F := Ideal) x3 x4 (ix2 o i)
      = Dequant.rcbAt x3 (Dequant.rowOf 256 (by decide) 256#32 (x4 (ix3 (0 : Fin 1) (Dequant.grp o) i))) (Dequant.lane o) := by
  unfold resRows
  rw [regroup_at]
  refine (RowGather.plain_apply (N := 256) (V := 8) (R := 512) (C := 4096) (by decide)
    Facts₀.gather_S256x8_S512x4096x1_S512x4096x8_2_0_n_n_0_2_18_wf _ _ (Dequant.grp o) i (Dequant.lane o)).trans ?_
  unfold Dequant.rcbAt Dequant.rowOf
  refine shapeCast_apply x3 shapeCasts_S1x2048_S256x8 _ _ ?_
  rewrite [Shape.rowMajor_val_two, Shape.rowMajor_val_two]
  show 0 * 2048 + (min (Dequant.wrapIdx 256#32 (x4 (ix3 (0 : Fin 1) (Dequant.grp o) i))).toInt.toNat (256 - 1) * 8 + (Dequant.lane o).val)
    = min (startWords 256#32 x4 (ix3 (Dequant.grp o) i (0 : Fin 1))).toInt.toNat (256 - 1) * 8 + (Dequant.lane o).val
  rw [startWords_at]
  omega

/-- A vector repeated down the rows is read at the column. -/
theorem downRows_at {α : Type} (x : S4096.Idx → α) (o i : Fin 4096) :
    broadcastInDim S4096x4096 ![0, 1] bcast_S1x4096_S4096x4096_0_1 (broadcastInDim S1x4096 ![1] bcast_S4096_S1x4096_1 x) (ix2 o i)
      = x (ix1 i) := by
  rw [broadcastInDim_apply _ bcast_S1x4096_S4096x4096_0_1 _ (ix2 o i) (ix2 (0 : Fin 1) i) (fun a => match a with
    | ⟨0, _⟩ => by show 0 = if (1 : Nat) = 1 then 0 else o.val; rw [if_pos rfl]
    | ⟨1, _⟩ => by show i.val = if (4096 : Nat) = 1 then 0 else i.val; rw [if_neg (by decide)])]
  exact broadcastInDim_apply _ bcast_S4096_S1x4096_1 x (ix2 (0 : Fin 1) i) (ix1 i) (fun a => match a with
    | ⟨0, _⟩ => by show i.val = if (4096 : Nat) = 1 then 0 else i.val; rw [if_neg (by decide)])

/-- The kernel's weight matrix is the specification's. -/
theorem kWeight_eq (x1 : FVec Ideal S1x32768 .f32) (x2 : IVec S1x512x4096 32) (x3 : FVec Ideal S1x2048 .f32)
    (x4 : IVec S1x512x4096 32) (x5 x6 : FVec Ideal S4096 .f32) :
    kWeight (F := Ideal) x1 x2 x3 x4 x5 x6 = Dequant.weight x1 x2 x3 x4 x5 x6 := by
  funext j
  obtain ⟨o, i, rfl⟩ : ∃ (o i : Fin 4096), j = ix2 o i := ⟨j 0, j 1, eq_ix2 j⟩
  show (mainRows (F := Ideal) x1 x2 (ix2 o i) + resRows (F := Ideal) x3 x4 (ix2 o i)) * downRows (F := Ideal) x5 (ix2 o i)
      + downRows (F := Ideal) x6 (ix2 o i) = _
  rw [mainRows_at, resRows_at]
  unfold downRows
  rw [downRows_at, downRows_at]
  rfl

end Cert.KernelIdeal.KValue

end
-- ==== Proof.KernelRun.lean ====
/-
  The kernel's run, read: its result is the specification's product of `x` with the dequantised weight matrix.

  Before the region the host lines leave the weight matrix (the dequantisation, read in its own module) and `x` with
  its two leading axes merged into 16384 rows. The region leaves every row against every row of the weight matrix.
  After the region one reshape splits the 16384 rows back into 4 × 4096. Row 4096·b + s of the merged matrix is row
  (b, s) of `x`, so entry (b, s, o) of the result is the sum over k of x[b, s, k] · W[o, k].
-/
import proofs.«410807_j24103356465280_1_alg».proof.Proof.Gen.KernelIdeal.Frame
import proofs.«410807_j24103356465280_1_alg».proof.Proof.KernelArray
import proofs.«410807_j24103356465280_1_alg».proof.Proof.KernelWeights
import proofs.«410807_j24103356465280_1_alg».proof.Proof.Dequant
import Idealize.ShloMosaic.Lib.StableHlo.Run
import Idealize.ShloMosaic.Lib.Pipeline.Value
import Idealize.ShloMosaic.Lib.ValueIdx

noncomputable section

open scoped BigOperators

namespace Cert.KernelIdeal.KRun

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The argument arrays, at their literal types -/

abbrev xArg (c : Dev nD) : FVec Ideal S4x4096x4096 .f32 := m ((c.tc : Thread nD τ).loc main_arg0)
abbrev cbArg (c : Dev nD) : FVec Ideal S1x32768 .f32 := m ((c.tc : Thread nD τ).loc main_arg1)
abbrev ixArg (c : Dev nD) : IVec S1x512x4096 32 := m ((c.tc : Thread nD τ).loc main_arg2)
abbrev rcbArg (c : Dev nD) : FVec Ideal S1x2048 .f32 := m ((c.tc : Thread nD τ).loc main_arg3)
abbrev rixArg (c : Dev nD) : IVec S1x512x4096 32 := m ((c.tc : Thread nD τ).loc main_arg4)
abbrev scArg (c : Dev nD) : FVec Ideal S4096 .f32 := m ((c.tc : Thread nD τ).loc main_arg5)
abbrev biArg (c : Dev nD) : FVec Ideal S4096 .f32 := m ((c.tc : Thread nD τ).loc main_arg6)

/-- The layer's result of the argument arrays. -/
abbrev layer (c : Dev nD) : FVec Ideal S4x4096x4096 .f32 :=
  Dequant.product (xArg m c) (Dequant.weight (cbArg m c) (ixArg m c) (rcbArg m c) (rixArg m c) (scArg m c) (biArg m c))

/-! ## What the region finds -/

/-- The weight matrix the region finds is the specification's. -/
theorem weightIn_eq (c : Dev nD) :
    KArray.weightIn m c = Dequant.weight (cbArg m c) (ixArg m c) (rcbArg m c) (rixArg m c) (scArg m c) (biArg m c) := by
  refine Eq.trans ?_ (KValue.kWeight_eq (cbArg m c) (ixArg m c) (rcbArg m c) (rixArg m c) (scArg m c) (biArg m c))
  show StableHlo.after hostOps0 (fun b => m (c, b)) (Proc.devRef .tc main_v29) = _
  after_results_simp <;> rfl

/-- The row matrix the region finds is `x` with its two leading axes merged. -/
theorem rowsIn_eq (c : Dev nD) :
    KArray.rowsIn m c = shapeCast S16384x4096 (xArg m c) Facts₀.shapeCasts_S4x4096x4096_S16384x4096 := by
  show StableHlo.after hostOps0 (fun b => m (c, b)) (Proc.devRef .tc main_v30) = _
  after_results_simp <;> rfl

/-- Row 4096·b + s of the merged matrix is row (b, s) of `x`. -/
theorem rowsIn_at (c : Dev nD) (b : Fin 4) (s k : Fin 4096) :
    KArray.rowsIn m c (ix2 ⟨b.val * 4096 + s.val, by have := b.isLt; have := s.isLt; omega⟩ k) = xArg m c (ix3 b s k) := by
  rw [rowsIn_eq]
  refine shapeCast_apply (xArg m c) Facts₀.shapeCasts_S4x4096x4096_S16384x4096 _ (ix3 b s k) ?_
  rewrite [Shape.rowMajor_val_three, Shape.rowMajor_val_two]
  rfl

/-! ## What the line after the region leaves -/

/-- The result is the region's output array with its 16384 rows split into 4 × 4096. -/
theorem tail_eq (c : Dev nD) :
    Pipeline.afterTail₀ cfgs (dats m) 0 (V0 m) [hostOps1] c main_v32
      = shapeCast S4x4096x4096 ((dats m 0 c).arrAt 2 cfg0.N) Facts₀.shapeCasts_S16384x4096_S4x4096x4096 := by
  unfold Pipeline.afterTail₀
  show StableHlo.after hostOps1 _ (Proc.devRef .tc main_v32) = _
  after_results
  funext i
  show shapeCast S4x4096x4096 (Pipeline.withArrays spec0 c (V0 m c) (fun w => (dats m 0 c).arrAt w cfg0.N)
    (Proc.devRef .tc (Pipeline.arrRef spec0 2))) Facts₀.shapeCasts_S16384x4096_S4x4096x4096 i = _
  rw [Pipeline.withArrays_arr spec0 launch0.win.arr_inj c _ _ 2]

/-- Splitting the rows of "every row against every row of the weight matrix" gives the layer's result. -/
theorem split_eq (c : Dev nD) :
    shapeCast S4x4096x4096 (KArray.rowsTimes (KArray.rowsIn m c) (KArray.weightIn m c)) Facts₀.shapeCasts_S16384x4096_S4x4096x4096
      = layer m c := by
  funext j
  obtain ⟨b, s, o, rfl⟩ : ∃ (b : Fin 4) (s o : Fin 4096), j = ix3 b s o := ⟨j 0, j 1, j 2, eq_ix3 j⟩
  rw [shapeCast_apply _ Facts₀.shapeCasts_S16384x4096_S4x4096x4096 (ix3 b s o)
    (ix2 ⟨b.val * 4096 + s.val, by have := b.isLt; have := s.isLt; omega⟩ o) (by
      rewrite [Shape.rowMajor_val_two, Shape.rowMajor_val_three]; rfl)]
  unfold KArray.rowsTimes
  show ∑ k : Fin 4096, KArray.rowsIn m c (ix2 ⟨b.val * 4096 + s.val, _⟩ k) * KArray.weightIn m c (ix2 o k)
    = ∑ k : Fin 4096, xArg m c (ix3 b s k) * Dequant.weight (cbArg m c) (ixArg m c) (rcbArg m c) (rixArg m c) (scArg m c) (biArg m c) (ix2 o k)
  refine Finset.sum_congr rfl fun k _ => ?_
  rw [rowsIn_at, weightIn_eq]

/-! ## The run -/

/-- Every weakly fair execution of the kernel's program ends with the result at the layer's value of the argument
    arrays and the arguments unchanged. -/
theorem run : θ_run defs (onTc (τ := τ) (main (F := Ideal))) ⟨m, fun _ => 0, ρ⟩ fun r => ∀ c : Dev nD,
      r.2.mem ((c.tc : Thread nD τ).loc main_v32) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v32 (Pipeline.mem_restRefs_of main_v32 (by decide) (by decide))).trans (tail_eq m c)).trans
        ((congrArg (fun a => shapeCast S4x4096x4096 a Facts₀.shapeCasts_S16384x4096_S4x4096x4096) (KArray.final m c)).trans (split_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KRun

end
-- ==== Proof.RefValue.lean ====
/-
  The reference, read: its result is the specification's product of `x` with the dequantised weight matrix.

  The reference keeps a leading codebook axis of extent one through the gather, the transposition and the reshape,
  and drops it afterwards; read at an index every one of those steps is a relabelling of coordinates, and the
  gather is the row read of the batched spelling. The final contraction is the sum over the shared axis.
-/
import proofs.«410807_j24103356465280_1_alg».proof.Proof.Gen.ReferenceIdeal.Read
import proofs.«410807_j24103356465280_1_alg».proof.Proof.LibRowGather
import proofs.«410807_j24103356465280_1_alg».proof.Proof.Dequant

noncomputable section

open scoped BigOperators

namespace Cert.ReferenceIdeal.RefValue

open Cert.ReferenceIdeal Cert.ReferenceIdeal.Gen Cert.ReferenceIdeal.Read
open Idealize.ShloMosaic Idealize.ShloMosaic.ValueIdx Facts₀

/-! ## The index words -/

/-- The start index the main gather reads at (0, p, q, 0) is the normalised word `indices[0, p, q]`. -/
theorem main_word (x2 : IVec S1x512x4096 32) (p : Fin 512) (q : Fin 4096) :
    val_main_v6 (F := Ideal) x2 (ix4 (0 : Fin 1) p q (0 : Fin 1)) = Dequant.wrapIdx 4096#32 (x2 (ix3 (0 : Fin 1) p q)) := by
  have e : idx_main_v6 (ix4 (0 : Fin 1) p q (0 : Fin 1)) = ix3 (0 : Fin 1) p q :=
    funext fun a => Fin.ext (by match a with | ⟨0, _⟩ => rfl | ⟨1, _⟩ => rfl | ⟨2, _⟩ => rfl)
  rw [val_main_v6_apply, e, val_main_v5_apply, val_main_v2_apply, val_main_v4_apply, val_main_v1_apply, val_main_v3_apply,
    val_main_c_apply, val_main_c_0_apply]
  rfl

/-- The start index the residual gather reads at (0, p, q, 0) is the normalised word `res_indices[0, p, q]`. -/
theorem res_word (x4 : IVec S1x512x4096 32) (p : Fin 512) (q : Fin 4096) :
    val_main_v16 (F := Ideal) x4 (ix4 (0 : Fin 1) p q (0 : Fin 1)) = Dequant.wrapIdx 256#32 (x4 (ix3 (0 : Fin 1) p q)) := by
  have e : idx_main_v16 (ix4 (0 : Fin 1) p q (0 : Fin 1)) = ix3 (0 : Fin 1) p q :=
    funext fun a => Fin.ext (by match a with | ⟨0, _⟩ => rfl | ⟨1, _⟩ => rfl | ⟨2, _⟩ => rfl)
  rw [val_main_v16_apply, e, val_main_v15_apply, val_main_v12_apply, val_main_v14_apply, val_main_v11_apply, val_main_v13_apply,
    val_main_c_1_apply, val_main_c_2_apply]
  rfl

/-! ## The two gathers -/

/-- The main gather at (0, p, q, v): entry v of the codebook row that `indices[0, p, q]` names. -/
theorem main_rows (x1 : FVec Ideal S1x32768 .f32) (x2 : IVec S1x512x4096 32) (p : Fin 512) (q : Fin 4096) (v : Fin 8) :
    val_main_v7 (F := Ideal) x1 x2 (ix4 (0 : Fin 1) p q v)
      = Dequant.cbAt x1 (Dequant.rowOf 4096 (by decide) 4096#32 (x2 (ix3 (0 : Fin 1) p q))) v := by
  unfold val_main_v7
  refine (RowGather.batched_apply (N := 4096) (V := 8) (R := 512) (C := 4096) (by decide)
    Facts₀.gather_S1x4096x8_S1x512x4096x1_S1x512x4096x8_3_1_0_0_1_3_118_wf _ _ p q v).trans ?_
  rw [val_main_v0_apply]
  unfold Dequant.cbAt Dequant.rowOf
  refine congrArg x1 (funext fun a => Fin.ext ?_)
  match a with
  | ⟨0, _⟩ => rfl
  | ⟨1, _⟩ =>
    show ((0 * 4096 + min (val_main_v6 (F := Ideal) x2 (ix4 (0 : Fin 1) p q (0 : Fin 1))).toInt.toNat (4096 - 1)) * 8 + v.val) % 32768
      = min (Dequant.wrapIdx 4096#32 (x2 (ix3 (0 : Fin 1) p q))).toInt.toNat (4096 - 1) * 8 + v.val
    rw [main_word]
    have := v.isLt
    omega

/-- The residual gather at (0, p, q, v): entry v of the residual codebook row that `res_indices[0, p, q]` names. -/
theorem res_rows (x3 : FVec Ideal S1x2048 .f32) (x4 : IVec S1x512x4096 32) (p : Fin 512) (q : Fin 4096) (v : Fin 8) :
    val_main_v17 (F := Ideal) x3 x4 (ix4 (0 : Fin 1) p q v)
      = Dequant.rcbAt x3 (Dequant.rowOf 256 (by decide) 256#32 (x4 (ix3 (0 : Fin 1) p q))) v := by
  unfold val_main_v17
  refine (RowGather.batched_apply (N := 256) (V := 8) (R := 512) (C := 4096) (by decide)
    Facts₀.gather_S1x256x8_S1x512x4096x1_S1x512x4096x8_3_1_0_0_1_3_118_wf _ _ p q v).trans ?_
  rw [val_main_v10_apply]
  unfold Dequant.rcbAt Dequant.rowOf
  refine congrArg x3 (funext fun a => Fin.ext ?_)
  match a with
  | ⟨0, _⟩ => rfl
  | ⟨1, _⟩ =>
    show ((0 * 256 + min (val_main_v16 (F := Ideal) x4 (ix4 (0 : Fin 1) p q (0 : Fin 1))).toInt.toNat (256 - 1)) * 8 + v.val) % 2048
      = min (Dequant.wrapIdx 256#32 (x4 (ix3 (0 : Fin 1) p q))).toInt.toNat (256 - 1) * 8 + v.val
    rw [res_word]
    have := v.isLt
    omega

/-! ## Rows laid out along the output axis -/

/-- Transposing the last two axes and merging group and lane: entry (0, o, i) comes from gathered entry
    (0, o / 8, i, o % 8). -/
theorem regroup (o i : Fin 4096) :
    idx_main_v8 (idx_main_v9 (ix3 (0 : Fin 1) o i)) = ix4 (0 : Fin 1) (Dequant.grp o) i (Dequant.lane o) := by
  have ho := o.isLt
  have hi := i.isLt
  funext a
  refine Fin.ext ?_
  match a with
  | ⟨0, _⟩ => rfl
  | ⟨1, _⟩ => show ((0 * 4096 + o.val) * 4096 + i.val) / 32768 % 512 = o.val / 8; omega
  | ⟨2, _⟩ => show ((0 * 4096 + o.val) * 4096 + i.val) % 4096 = i.val; omega
  | ⟨3, _⟩ => show ((0 * 4096 + o.val) * 4096 + i.val) / 4096 % 8 = o.val % 8; omega

/-- Dropping the codebook axis: entry (o, i) of the matrix comes from entry (0, o, i). -/
theorem ungroup (o i : Fin 4096) : idx_main_v21 (idx_main_v22 (ix2 o i)) = ix3 (0 : Fin 1) o i := by
  have ho := o.isLt
  have hi := i.isLt
  funext a
  refine Fin.ext ?_
  match a with
  | ⟨0, _⟩ => rfl
  | ⟨1, _⟩ => show (o.val * 4096 + i.val) / 4096 = o.val; omega
  | ⟨2, _⟩ => show (o.val * 4096 + i.val) % 4096 = i.val; omega

/-- A vector over the input columns broadcast down the rows is read at the column. -/
theorem column (o i : Fin 4096) : idx_main_v23 (idx_main_v24 (ix2 o i)) = ix1 i :=
  funext fun a => Fin.ext (by match a with | ⟨0, _⟩ => rfl)

/-! ## The weight matrix and the result -/

/-- The reference's weight matrix is the specification's. -/
theorem weight_eq (x1 : FVec Ideal S1x32768 .f32) (x2 : IVec S1x512x4096 32) (x3 : FVec Ideal S1x2048 .f32)
    (x4 : IVec S1x512x4096 32) (x5 x6 : FVec Ideal S4096 .f32) :
    val_main_v28 (F := Ideal) x1 x2 x3 x4 x5 x6 = Dequant.weight x1 x2 x3 x4 x5 x6 := by
  funext j
  obtain ⟨o, i, rfl⟩ : ∃ (o i : Fin 4096), j = ix2 o i := ⟨j 0, j 1, eq_ix2 j⟩
  rw [val_main_v28_apply, val_main_v25_apply, val_main_v22_apply, val_main_v21_apply, val_main_v20_apply,
    val_main_v9_apply, val_main_v8_apply, val_main_v19_apply, val_main_v18_apply,
    val_main_v24_apply, val_main_v23_apply, val_main_v27_apply, val_main_v26_apply]
  rw [ungroup, regroup, main_rows]
  rw [show idx_main_v18 (idx_main_v19 (ix3 (0 : Fin 1) o i)) = ix4 (0 : Fin 1) (Dequant.grp o) i (Dequant.lane o) from regroup o i,
    res_rows]
  rw [show idx_main_v26 (idx_main_v27 (ix2 o i)) = ix1 i from column o i, column]
  rfl

/-- The reference's result is the specification's product. -/
theorem result_eq (x0 : FVec Ideal S4x4096x4096 .f32) (x1 : FVec Ideal S1x32768 .f32) (x2 : IVec S1x512x4096 32)
    (x3 : FVec Ideal S1x2048 .f32) (x4 : IVec S1x512x4096 32) (x5 x6 : FVec Ideal S4096 .f32) :
    val_main_v29 (F := Ideal) x0 x1 x2 x3 x4 x5 x6 = Dequant.product x0 (Dequant.weight x1 x2 x3 x4 x5 x6) := by
  funext j
  rw [val_main_v29_apply, weight_eq]
  unfold Dequant.product
  refine Finset.sum_congr rfl fun k _ => ?_
  have el : lidx_main_v29 j k = ix3 (j 0) (j 1) k :=
    funext fun a => Fin.ext (by match a with | ⟨0, _⟩ => rfl | ⟨1, _⟩ => rfl | ⟨2, _⟩ => rfl)
  have er : ridx_main_v29 j k = ix2 (j 2) k :=
    funext fun a => Fin.ext (by match a with | ⟨0, _⟩ => rfl | ⟨1, _⟩ => rfl)
  rw [el, er]
  rfl

end Cert.ReferenceIdeal.RefValue

end
-- ==== Proof.lean ====
/-
  A linear layer with a vector-quantised weight matrix, against its plain reference.

  Both programs compute y[b, s, o] = Σ_k x[b, s, k] · W[o, k], where the 4096 × 4096 matrix W is dequantised from two
  codebooks of rows of eight and two index arrays (one codebook row per group of eight output rows and input column,
  main plus residual), then scaled and shifted per input column:

      W[o, i] = (cb[row(indices[0, o / 8, i]), o % 8] + rcb[row'(res_indices[0, o / 8, i]), o % 8]) · scale[i] + bias[i].

  The kernel dequantises on the host without the codebook axis of extent one, changes the weight matrix to a shorter
  float format, merges the two leading axes of `x`, and multiplies 128 rows at a time against the whole weight matrix
  in a pipelined region, each block's product added onto a zero accumulator; a reshape restores the leading axes. The
  reference keeps the codebook axis through a batched gather, drops it, and contracts `x` with W in one product.

  On the extended reals a change of float format is the identity and a product into a zero accumulator is the plain
  sum, so both results are the same sum of 4096 products, term by term: no law beyond reading each layout operation at
  an index is needed, and the precondition is not used. A gather's start index is read signed and clamped in both
  spellings, so the two programs agree on every index word, in range or not.

  The idealised kernel is the kernel's own text read on the extended reals (no rewrite was applied), so the
  idealisation claim is the trivial one. The three frames are the generated ones, the reference's being its generated
  run with the result dropped.
-/
import proofs.«410807_j24103356465280_1_alg».proof.Defs
import proofs.«410807_j24103356465280_1_alg».proof.Proof.Gen.Kernel
import proofs.«410807_j24103356465280_1_alg».proof.Proof.Gen.Kernel.Skeleton
import proofs.«410807_j24103356465280_1_alg».proof.Proof.Gen.Kernel.Launch
import proofs.«410807_j24103356465280_1_alg».proof.Proof.Gen.Kernel.Points
import proofs.«410807_j24103356465280_1_alg».proof.Proof.Gen.Kernel.Frame
import proofs.«410807_j24103356465280_1_alg».proof.Proof.Gen.KernelIdeal
import proofs.«410807_j24103356465280_1_alg».proof.Proof.Gen.KernelIdeal.Skeleton
import proofs.«410807_j24103356465280_1_alg».proof.Proof.Gen.KernelIdeal.Launch
import proofs.«410807_j24103356465280_1_alg».proof.Proof.Gen.KernelIdeal.Points
import proofs.«410807_j24103356465280_1_alg».proof.Proof.Gen.KernelIdeal.Frame
import proofs.«410807_j24103356465280_1_alg».proof.Proof.Gen.ReferenceIdeal
import proofs.«410807_j24103356465280_1_alg».proof.Proof.Gen.Pre_finite_inputs
import proofs.«410807_j24103356465280_1_alg».proof.Proof.Gen.ReferenceIdeal.Run
import proofs.«410807_j24103356465280_1_alg».proof.Proof.Gen.ReferenceIdeal.Read
import proofs.«410807_j24103356465280_1_alg».proof.Proof.KernelRun
import proofs.«410807_j24103356465280_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From memories that agree on the seven arguments both programs end with the layer's value of those arguments:
    the kernel by its run read back, the reference by its run and its stages read at an index. -/
theorem algebraic : Cert.algebraic_KernelIdeal_ReferenceIdeal := by
  intro m ρ m' ρ' _ hagree
  refine ⟨fun c => Cert.KernelIdeal.KRun.layer m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v29_eq, Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
